-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096x4096 : Shape := ⟨2, ![4096, 4096]⟩
abbrev S4096 : Shape := ⟨1, ![4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x4096x4096 .f32) (main_arg1 : FVec F S4096x4096 .f32) (main_arg2 : FVec F S4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x4096x4096 : Shape := ⟨3, ![8, 4096, 4096]⟩
abbrev S4096x4096 : Shape := ⟨2, ![4096, 4096]⟩
abbrev S4096 : Shape := ⟨1, ![4096]⟩
abbrev S32768x4096 : Shape := ⟨2, ![32768, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096, .f32⟩
  | .hbm, ⟨3, _⟩ => ⟨S32768x4096, .f32⟩
  | .hbm, ⟨4, _⟩ => ⟨S1x4096, .f32⟩
  | .hbm, ⟨5, _⟩ => ⟨S32768x4096, .f32⟩
  | .hbm, ⟨6, _⟩ => ⟨S8x4096x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x4096x4096_S32768x4096 : S8x4096x4096.ShapeCasts S32768x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x4096_S8x4096x4096 : S32768x4096.ShapeCasts S8x4096x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x4096.size a
  hwx0_0 : ∀ i : grid0.Coords, EltTy.bits .f32 = 32 ∨ (Rect.block (s := S32768x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .f32 = 32 ∨ (Rect.block (s := S4096x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x4096.size a
  hwx0_3 : ∀ i : grid0.Coords, EltTy.bits .f32 = 32 ∨ (Rect.block (s := S32768x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096, .f32⟩
  | .hbm, ⟨3, _⟩ => ⟨S8x4096x4096, .f32⟩
  | .hbm, ⟨4, _⟩ => ⟨S1x1x4096, .f32⟩
  | .hbm, ⟨5, _⟩ => ⟨S8x4096x4096, .f32⟩
  | .hbm, ⟨6, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  dot_S8x4096x4096_S4096x4096_S8x4096x4096_2_1_01_0_n_n_wf : DotDims.WF S8x4096x4096 S4096x4096 S8x4096x4096 [2] [1] [0, 1] [0] [] []

variable [Facts₀]

def dot_S8x4096x4096_S4096x4096_S8x4096x4096_2_1_01_0_n_n : DotDims S8x4096x4096 S4096x4096 S8x4096x4096 where
  lhsContracting := [2]
  rhsContracting := [1]
  lhsNonContracting := [0, 1]
  rhsNonContracting := [0]
  lhsBatch := []
  rhsBatch := []
  wf := dot_S8x4096x4096_S4096x4096_S8x4096x4096_2_1_01_0_n_n_wf

class Facts : Prop extends Facts₀ where

variable [Facts]
-- ==== Proof.Pieces.lean ====
/-
  What one grid point leaves behind, as terms of the body's arithmetic.

  The grid is (32, 4, 2): row block, column block, contraction half. A point of the lower half (even position in grid
  order) zeroes the accumulator and adds its partial product, and writes nothing out; a point of the upper half (odd
  position) adds its partial product to what the point before left and writes accumulator plus bias to the output
  block. So the output block written at an odd position t is

      bias + ((0 + X(t-1)·W(t-1)ᵀ) + X(t)·W(t)ᵀ)

  with X, W, bias the blocks the windows hold at those two positions. No induction over the grid is needed: the
  accumulator at an even position does not depend on what came before.
-/
import proofs.«149944_j89404039233680_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- Lower half: the accumulator is zeroed, read back, and left at zero plus the partial product. -/
theorem acc_lower (c : Dev nD) (i : grid0.Coords) (a3 : Memref sig .tc .vmem S1024x2048 .f32) (h3 : a3.IsWhole) (a4 : Memref sig .tc .vmem S1024x2048 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x2048 .f32) (x1 : Vec F S1024x2048 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets]
  simp only [View.readAt_eq_ld, h3.read_unread, h4.read_unread, View.ld_unit_zero (S := S1024x2048) zero_offsets,
    View.readCov_unit_zero (S := S1024x1024) _ zero_offsets]

/-- Upper half: the accumulator found (`acc`) receives the partial product. -/
theorem acc_upper (c : Dev nD) (i : grid0.Coords) (a3 : Memref sig .tc .vmem S1024x2048 .f32) (h3 : a3.IsWhole) (a4 : Memref sig .tc .vmem S1024x2048 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .f32) (x1 : Vec F S1024x2048 .f32) (x2 : Vec F S1x1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero zero_offsets]
  simp only [View.readAt_eq_ld, h3.read_unread, h4.read_unread, h7.read_unread,
    View.ld_unit_zero (S := S1024x2048) zero_offsets, View.ld_unit_zero (S := S1024x1024) zero_offsets]

/-- Upper half: the output block is the updated accumulator plus the bias row. -/
theorem out_upper (c : Dev nD) (i : grid0.Coords) (a3 : Memref sig .tc .vmem S1024x2048 .f32) (h3 : a3.IsWhole) (a4 : Memref sig .tc .vmem S1024x2048 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .f32) (x1 : Vec F S1024x2048 .f32) (x2 : Vec F S1x1024 .f32) (acc : Vec F S1024x1024 .f32) :
    out0_B_3 c i a3 h3 a4 h4 a5 h5 a6 h6 a7 h7 hc0 hc1 x0 x1 x2 acc = k0_pay3 (k0_pay2 x0 x1 acc) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero zero_offsets]
  simp only [View.readAt_eq_ld, h3.read_unread, h4.read_unread, h5.read_unread, h7.read_unread,
    View.ld_unit_zero (S := S1024x2048) zero_offsets, View.ld_unit_zero (S := S1024x1024) zero_offsets,
    View.ld_unit_zero (S := S1x1024) zero_offsets, View.readCov_unit_zero (S := S1024x1024) _ zero_offsets]

variable (m : (ℓ : Loc nD τ sig) → Buf (Elt F) ℓ)

/-- The blocks the three input windows hold at a grid position, at their literal types. -/
abbrev xblk (c : Dev nD) (t : Fin cfg0.N) : Vec F S1024x2048 .f32 := iblk m c 0 t
abbrev wblk (c : Dev nD) (t : Fin cfg0.N) : Vec F S1024x2048 .f32 := iblk m c 1 t
abbrev bblk (c : Dev nD) (t : Fin cfg0.N) : Vec F S1x1024 .f32 := iblk m c 2 t

/-- The grid position before `t`. -/
abbrev before (t : Fin cfg0.N) : Fin cfg0.N := ⟨t.val - 1, Nat.lt_of_le_of_lt (Nat.sub_le _ _) t.isLt⟩

/-- What an upper-half position writes out, from the blocks at it and at the position before. -/
def written (c : Dev nD) (t : Fin cfg0.N) : Vec F S1024x1024 .f32 :=
  k0_pay3 (k0_pay2 (xblk m c t) (wblk m c t) (k0_pay2 (xblk m c (before t)) (wblk m c (before t)) (k0_pay1 (F := F)))) (bblk m c t)

/-- At an odd grid position the output's staging buffer ends holding `written`. -/
theorem outsAt_odd (c : Dev nD) (t : Fin cfg0.N) (h1 : t.val % 2 = 1) :
    (outsAt0 m c t.val t.isLt).1 = written m c t := by
  have h0 : ¬t.val % 2 = 0 := by omega
  have h0' : (before t).val % 2 = 0 := by show (t.val - 1) % 2 = 0; omega
  have h1' : ¬(before t).val % 2 = 1 := by show ¬(t.val - 1) % 2 = 1; omega
  rw [outsAt0_B m c t h0 h1]
  dsimp only
  rw [out_upper]
  have e := outsAt0_A m c (before t) h0' h1'
  rw [show outsAt0 m c (t.val - 1) _ = outsAt0 m c (before t).val (before t).isLt from rfl, e]
  dsimp only
  rw [acc_lower]
  rfl

end Cert.KernelIdeal.Pieces

end
-- ==== Proof.LinearSpec.lean ====
/-
  The mathematics of the certificate, with no program in sight.

  A dense layer over a batch: for `x : [8, 4096, 4096]`, `w : [4096, 4096]` (rows are output features, columns input
  features) and `b : [4096]`,

      linear x w b (β, s, o) = (∑ κ < 4096, x (β, s, κ) · w (o, κ)) + b o

  on the extended reals. The same function laid out with the two leading axes merged into one row index
  `r = 4096·β + s` is `linearRows`; a row-major reshape carries one to the other (`reshape_linearRows`), and the
  operands' reshapes are read likewise (`reshape_rows_apply`, `reshape_biasRow_apply`).

  The one algebraic fact: a sum over 4096 contraction indices is the sum over its lower half plus the sum over its upper
  half (`sum_halves`), and so an accumulator that starts at zero and receives the two half sums in turn ends at the
  whole sum (`acc_two_halves`). Only commutative-monoid laws of `+` are used, which hold on all extended reals, the
  infinities included: no finiteness of the inputs is needed.
-/
import Idealize.ShloMosaic.PureOps.Ideal
import Idealize.ShloMosaic.Lib.ValueIdx
import Idealize.ShloMosaic.Lib.Pipeline.Value

noncomputable section

open scoped BigOperators

namespace Cert.Linear

open Idealize.ShloMosaic Idealize.ShloMosaic.ValueIdx

/-- The batch of inputs, the weight matrix, the bias vector; the batch with its two leading axes merged; the bias as
    a one-row matrix. -/
abbrev SX : Shape := ⟨3, ![8, 4096, 4096]⟩
abbrev SW : Shape := ⟨2, ![4096, 4096]⟩
abbrev SB : Shape := ⟨1, ![4096]⟩
abbrev SRows : Shape := ⟨2, ![32768, 4096]⟩
abbrev SBRow : Shape := ⟨2, ![1, 4096]⟩

/-- Row `r` of the merged layout is batch `r / 4096`, position `r % 4096`. -/
abbrev batchOf (r : Fin 32768) : Fin 8 := ⟨r.val / 4096, by have := r.isLt; omega⟩
abbrev posOf (r : Fin 32768) : Fin 4096 := ⟨r.val % 4096, by have := r.isLt; omega⟩

/-- The dense layer, index by index. -/
def linear (x : SX.Idx → EReal) (w : SW.Idx → EReal) (b : SB.Idx → EReal) : SX.Idx → EReal :=
  fun i => (∑ κ : Fin 4096, x (ix3 (i 0) (i 1) κ) * w (ix2 (i 2) κ)) + b (ix1 (i 2))

/-- The same with the batch and position merged into one row index. -/
def linearRows (x : SX.Idx → EReal) (w : SW.Idx → EReal) (b : SB.Idx → EReal) : SRows.Idx → EReal :=
  fun j => (∑ κ : Fin 4096, x (ix3 (batchOf (j 0)) (posOf (j 0)) κ) * w (ix2 (j 1) κ)) + b (ix1 (j 1))

/-- The lower and upper half of the contraction axis. -/
abbrev lo (κ : Fin 2048) : Fin 4096 := ⟨κ.val, by have := κ.isLt; omega⟩
abbrev hi (κ : Fin 2048) : Fin 4096 := ⟨2048 + κ.val, by have := κ.isLt; omega⟩

/-- A sum over the 4096 contraction indices splits into its two halves, in any commutative monoid. -/
theorem sum_halves {M : Type*} [AddCommMonoid M] (f : Fin 4096 → M) :
    ∑ κ : Fin 4096, f κ = (∑ κ : Fin 2048, f (lo κ)) + ∑ κ : Fin 2048, f (hi κ) :=
  Fin.sum_univ_add (M := M) (a := 2048) (b := 2048) f

/-- An accumulator that starts at zero and is given the lower then the upper half sum holds the whole sum. -/
theorem acc_two_halves (f : Fin 4096 → EReal) :
    ((0 : EReal) + ∑ κ : Fin 2048, f (lo κ)) + ∑ κ : Fin 2048, f (hi κ) = ∑ κ : Fin 4096, f κ := by
  rw [zero_add, sum_halves]

/-- The merged-rows reshape of the batch read at (r, κ) is the batch at (r / 4096, r % 4096, κ). -/
theorem reshape_rows_apply {α : Type} (x : SX.Idx → α) (h : SX.ShapeCasts SRows) (r : Fin 32768) (κ : Fin 4096) :
    shapeCast SRows x h (ix2 r κ) = x (ix3 (batchOf r) (posOf r) κ) := by
  refine shapeCast_apply x h _ _ ?_
  rw [Shape.rowMajor_val_three, Shape.rowMajor_val_two]
  show ((r.val / 4096) * 4096 + r.val % 4096) * 4096 + κ.val = r.val * 4096 + κ.val
  have := r.isLt
  omega

/-- The one-row reshape of the bias read at (0, o) is the bias at o. -/
theorem reshape_biasRow_apply {α : Type} (b : SB.Idx → α) (h : SB.ShapeCasts SBRow) (z : Fin 1) (o : Fin 4096) :
    shapeCast SBRow b h (ix2 z o) = b (ix1 o) := by
  refine shapeCast_apply b h _ _ ?_
  rw [Shape.rowMajor_val_one, Shape.rowMajor_val_two]
  show o.val = z.val * 4096 + o.val
  have := z.isLt
  omega

/-- Un-merging the rows of `linearRows` gives `linear`: entry (β, s, o) is row `4096·β + s`, column `o`. -/
theorem reshape_linearRows (x : SX.Idx → EReal) (w : SW.Idx → EReal) (b : SB.Idx → EReal) (h : SRows.ShapeCasts SX) :
    shapeCast SX (linearRows x w b) h = linear x w b := by
  funext i
  have h0 := (i 0).isLt
  have h1 := (i 1).isLt
  have hr : (i 0).val * 4096 + (i 1).val < 32768 := by
    have : (i 0).val < 8 := h0
    have : (i 1).val < 4096 := h1
    omega
  rw [shapeCast_apply (linearRows x w b) h i (ix2 ⟨(i 0).val * 4096 + (i 1).val, hr⟩ (i 2)) (by
    rw [Shape.rowMajor_val_three, Shape.rowMajor_val_two]; rfl)]
  unfold linearRows linear
  have eb : batchOf ⟨(i 0).val * 4096 + (i 1).val, hr⟩ = i 0 := Fin.ext (by
    show ((i 0).val * 4096 + (i 1).val) / 4096 = (i 0).val
    have : (i 1).val < 4096 := h1
    omega)
  have ep : posOf ⟨(i 0).val * 4096 + (i 1).val, hr⟩ = i 1 := Fin.ext (by
    show ((i 0).val * 4096 + (i 1).val) % 4096 = (i 1).val
    have : (i 1).val < 4096 := h1
    omega)
  show (∑ κ : Fin 4096, x (ix3 (batchOf ⟨_, hr⟩) (posOf ⟨_, hr⟩) κ) * w (ix2 (i 2) κ)) + b (ix1 (i 2)) = _
  rw [eb, ep]

end Cert.Linear

end
-- ==== Proof.Blocks.lean ====
/-
  Which entries of the argument arrays the windows hold at a grid position.

  Position t of the grid (32, 4, 2), counted in grid order, is row block t / 8, column block (t / 2) % 4 and
  contraction half t % 2. At it
    the input window holds rows 1024·(t / 8) + p, columns 2048·(t % 2) + κ of the batch with its leading axes merged,
      which is the batch at (r / 4096, r % 4096, ·) for that row r;
    the weight window holds rows 1024·((t / 2) % 4) + q, columns 2048·(t % 2) + κ of the weight matrix;
    the bias window holds columns 1024·((t / 2) % 4) + q of the bias laid out as one row.
-/
import proofs.«149944_j89404039233680_1_alg».proof.Proof.Pieces
import proofs.«149944_j89404039233680_1_alg».proof.Proof.LinearSpec
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Linear

variable {F : FTy → Type} [FloatOps F]
variable (m : (ℓ : Loc nD τ sig) → Buf (Elt F) ℓ)

/-! ## The grid's index maps, decided once over its 256 positions -/

theorem index_x : ∀ t : Fin cfg0.N, win0_0.index t (0 : Fin 2) = t.val / 8 ∧ win0_0.index t (1 : Fin 2) = t.val % 2 :=
  (by decide +kernel : ∀ t : Fin grid0.N, win0_0.index t (0 : Fin 2) = t.val / 8 ∧ win0_0.index t (1 : Fin 2) = t.val % 2)
theorem index_w : ∀ t : Fin cfg0.N, win0_1.index t (0 : Fin 2) = (t.val / 2) % 4 ∧ win0_1.index t (1 : Fin 2) = t.val % 2 :=
  (by decide +kernel : ∀ t : Fin grid0.N, win0_1.index t (0 : Fin 2) = (t.val / 2) % 4 ∧ win0_1.index t (1 : Fin 2) = t.val % 2)
theorem index_b : ∀ t : Fin cfg0.N, win0_2.index t (0 : Fin 2) = 0 ∧ win0_2.index t (1 : Fin 2) = (t.val / 2) % 4 :=
  (by decide +kernel : ∀ t : Fin grid0.N, win0_2.index t (0 : Fin 2) = 0 ∧ win0_2.index t (1 : Fin 2) = (t.val / 2) % 4)
theorem index_o : ∀ t : Fin cfg0.N, win0_3.index t (0 : Fin 2) = t.val / 8 ∧ win0_3.index t (1 : Fin 2) = (t.val / 2) % 4 :=
  (by decide +kernel : ∀ t : Fin grid0.N, win0_3.index t (0 : Fin 2) = t.val / 8 ∧ win0_3.index t (1 : Fin 2) = (t.val / 2) % 4)

theorem lt_256 (t : Fin cfg0.N) : t.val < 256 := lt_of_lt_of_eq t.isLt (show cfg0.N = 256 from N_0)

/-- Row p of the row block, column q of the column block, contraction index κ of the half, at position t. -/
abbrev rowAt (t : Fin cfg0.N) (p : Fin 1024) : Fin 32768 := ⟨(t.val / 8) * 1024 + p.val, by have := lt_256 t; have := p.isLt; omega⟩
abbrev featAt (t : Fin cfg0.N) (q : Fin 1024) : Fin 4096 := ⟨((t.val / 2) % 4) * 1024 + q.val, by have := q.isLt; omega⟩
abbrev contrAt (t : Fin cfg0.N) (κ : Fin 2048) : Fin 4096 := ⟨(t.val % 2) * 2048 + κ.val, by have := κ.isLt; omega⟩

/-! ## The arrays as the region finds them -/

/-- The batch with its leading axes merged. -/
theorem entry_rows (c : Dev nD) :
    (V m c main_v0 : S32768x4096.Idx → Elt F .f32)
      = shapeCast S32768x4096 (m ((c : Thread nD τ).loc main_arg0)) shapeCasts_S8x4096x4096_S32768x4096 := by
  show StableHlo.after hostOps0 (fun b => m (c, b)) (Proc.devRef .tc main_v0) = _
  after_results
  rfl

/-- The bias as one row. -/
theorem entry_biasRow (c : Dev nD) :
    (V m c main_v1 : S1x4096.Idx → Elt F .f32)
      = shapeCast S1x4096 (m ((c : Thread nD τ).loc main_arg2)) shapeCasts_S4096_S1x4096 := by
  show StableHlo.after hostOps0 (fun b => m (c, b)) (Proc.devRef .tc main_v1) = _
  after_results
  rfl

/-! ## The blocks -/

theorem xblk_apply (c : Dev nD) (t : Fin cfg0.N) (p : Fin 1024) (κ : Fin 2048) :
    xblk m c t (ix2 p κ)
      = m ((c : Thread nD τ).loc main_arg0) (ix3 (batchOf (rowAt t p)) (posOf (rowAt t p)) (contrAt t κ)) := by
  have e : ((cfg0.win 0).blk t).view.emb (ix2 p κ) = ix2 (rowAt t p) (contrAt t κ) := funext fun a => Fin.ext (by
    match a with
    | ⟨0, _⟩ => show win0_0.index t 0 * 1024 + 1 * p.val = (t.val / 8) * 1024 + p.val; rw [(index_x t).1]; omega
    | ⟨1, _⟩ => show win0_0.index t 1 * 2048 + 1 * κ.val = (t.val % 2) * 2048 + κ.val; rw [(index_x t).2]; omega)
  show V m c main_v0 (((cfg0.win 0).blk t).view.emb (ix2 p κ)) = _
  rw [e, entry_rows]
  exact reshape_rows_apply _ _ _ _

theorem wblk_apply (c : Dev nD) (t : Fin cfg0.N) (q : Fin 1024) (κ : Fin 2048) :
    wblk m c t (ix2 q κ) = m ((c : Thread nD τ).loc main_arg1) (ix2 (featAt t q) (contrAt t κ)) := by
  have e : ((cfg0.win 1).blk t).view.emb (ix2 q κ) = ix2 (featAt t q) (contrAt t κ) := funext fun a => Fin.ext (by
    match a with
    | ⟨0, _⟩ => show win0_1.index t 0 * 1024 + 1 * q.val = ((t.val / 2) % 4) * 1024 + q.val; rw [(index_w t).1]; omega
    | ⟨1, _⟩ => show win0_1.index t 1 * 2048 + 1 * κ.val = (t.val % 2) * 2048 + κ.val; rw [(index_w t).2]; omega)
  show V m c main_arg1 (((cfg0.win 1).blk t).view.emb (ix2 q κ)) = _
  rw [e, V_main_arg1]

theorem bblk_apply (c : Dev nD) (t : Fin cfg0.N) (z : Fin 1) (q : Fin 1024) :
    bblk m c t (ix2 z q) = m ((c : Thread nD τ).loc main_arg2) (ix1 (featAt t q)) := by
  have e : ((cfg0.win 2).blk t).view.emb (ix2 z q) = ix2 (0 : Fin 1) (featAt t q) := funext fun a => Fin.ext (by
    match a with
    | ⟨0, _⟩ => show win0_2.index t 0 * 1 + 1 * z.val = 0; rw [(index_b t).1]; have := z.isLt; omega
    | ⟨1, _⟩ => show win0_2.index t 1 * 1024 + 1 * q.val = ((t.val / 2) % 4) * 1024 + q.val; rw [(index_b t).2]; omega)
  show V m c main_v1 (((cfg0.win 2).blk t).view.emb (ix2 z q)) = _
  rw [e, entry_biasRow]
  exact reshape_biasRow_apply _ _ _ _

end Cert.KernelIdeal.Blocks

end
-- ==== Proof.Payload.lean ====
/-
  The body's arithmetic read at one entry, on the extended reals.

  At entry (p, q) of a 1024 × 1024 block:
    the reset value is 0;
    the accumulate step gives acc (p, q) + ∑ κ < 2048, X (p, κ) · W (q, κ)   — the product contracts the second axis
      of BOTH operands (the weight block is stored with output features along its rows), the narrowing of the operands
      to a shorter float format is the identity on exact values, and the product's own accumulator is the zero splat;
    the final step gives v (p, q) + bias (0, q): the one-row bias block is repeated down the rows.
-/
import proofs.«149944_j89404039233680_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The product's operand indices at output entry `i` and contraction index `q`: the left operand is read at
    (i₀, q), the right at (i₁, q). -/
theorem lhs_mm_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_mm_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_mm_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_mm_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product into the zero accumulator at (p, q): the sum over κ of X (p, κ) · W (q, κ). -/
theorem product_apply (X W : FVec Ideal S1024x2048 .bf16) (p q : Fin 1024) :
    matmul (F := Ideal) dot_S1024x2048_S1024x2048_S1024x1024_1_1_0_0_n_n none X W (constant (F := Ideal) S1024x1024 .f32 0x00000000#32) (ix2 p q)
      = ∑ κ : Fin 2048, X (ix2 p κ) * W (ix2 q κ) := by
  simp only [matmul]
  rw [Ideal.matmul_constant_zero_apply, ← Equiv.sum_comp (contrEquiv1 dot_S1024x2048_S1024x2048_S1024x1024_1_1_0_0_n_n 2048 rfl rfl).symm]
  refine Finset.sum_congr rfl fun κ _ => ?_
  have hk := contrEquiv1_symm_val dot_S1024x2048_S1024x2048_S1024x1024_1_1_0_0_n_n 2048 rfl rfl κ
  have el : dot_S1024x2048_S1024x2048_S1024x1024_1_1_0_0_n_n.lhsIdx (ix2 p q) ((contrEquiv1 dot_S1024x2048_S1024x2048_S1024x1024_1_1_0_0_n_n 2048 rfl rfl).symm κ) = ix2 p κ := funext fun a => Fin.ext (by
    match a with
    | ⟨0, _⟩ => exact lhs_mm_0 _ _
    | ⟨1, _⟩ => exact (lhs_mm_1 _ _).trans hk)
  have er : dot_S1024x2048_S1024x2048_S1024x1024_1_1_0_0_n_n.rhsIdx (ix2 p q) ((contrEquiv1 dot_S1024x2048_S1024x2048_S1024x1024_1_1_0_0_n_n 2048 rfl rfl).symm κ) = ix2 q κ := funext fun a => Fin.ext (by
    match a with
    | ⟨0, _⟩ => exact rhs_mm_0 _ _
    | ⟨1, _⟩ => exact (rhs_mm_1 _ _).trans hk)
  rw [el, er]

/-- The reset value at any entry is zero. -/
theorem reset_apply (j : S1024x1024.Idx) : k0_pay1 (F := Ideal) j = 0 := by
  unfold k0_pay1
  simp only [shapeCast_self]
  exact Ideal.ofBits_zero_f32

/-- The accumulate step at (p, q). -/
theorem accumulate_apply (X W : FVec Ideal S1024x2048 .f32) (acc : FVec Ideal S1024x1024 .f32) (p q : Fin 1024) :
    k0_pay2 (F := Ideal) X W acc (ix2 p q) = acc (ix2 p q) + ∑ κ : Fin 2048, X (ix2 p κ) * W (ix2 q κ) := by
  unfold k0_pay2
  simp only [shapeCast_self]
  exact congrArg (fun z : EReal => acc (ix2 p q) + z)
    (product_apply (truncf (F := Ideal) .bf16 X bitsLt_bf16_f32) (truncf (F := Ideal) .bf16 W bitsLt_bf16_f32) p q)

/-- The final step at (p, q). -/
theorem finish_apply (v : FVec Ideal S1024x1024 .f32) (b : FVec Ideal S1x1024 .f32) (p q : Fin 1024) :
    k0_pay3 (F := Ideal) v b (ix2 p q) = v (ix2 p q) + b (ix2 (0 : Fin 1) q) := by
  unfold k0_pay3
  simp only [shapeCast_self]
  exact congrArg (fun z : EReal => v (ix2 p q) + z)
    (broadcastTo_apply b broadcasts_S1x1024_S1024x1024 (ix2 p q) (ix2 (0 : Fin 1) q) (fun a => by
      match a with
      | ⟨0, _⟩ => show (0 : Nat) = if (1 : Nat) = 1 then 0 else _; rw [if_pos rfl]
      | ⟨1, _⟩ => show q.val = if (1024 : Nat) = 1 then 0 else q.val; rw [if_neg (by decide)]))

end Cert.KernelIdeal.Payload

end
-- ==== Proof.KernelValue.lean ====
/-
  What the kernel's result array holds after the run, on the extended reals: the dense layer of the arguments.

  An odd grid position t writes the block (t / 8, (t / 2) % 4) of the output with its leading axes merged. Its entry
  (p, q) is  bias (n) + ((0 + ∑ κ < 2048, x (r, κ) · w (n, κ)) + ∑ κ < 2048, x (r, 2048 + κ) · w (n, 2048 + κ))  for
  the row r = 1024·(t / 8) + p and the output feature n = 1024·((t / 2) % 4) + q: the two halves of the contraction,
  accumulated from zero in turn, which is the whole sum over 4096. The 128 odd positions' blocks tile the 32768 × 4096
  array (the block that holds (r, n) is written at position 8·(r / 1024) + 2·(n / 1024) + 1), so the array ends at
  `linearRows`; the reshape after the region un-merges the rows, giving `linear`.
-/
import proofs.«149944_j89404039233680_1_alg».proof.Proof.Blocks
import proofs.«149944_j89404039233680_1_alg».proof.Proof.Payload

noncomputable section

open Idealize.ShloMosaic Idealize.ShloMosaic.TcCoe Idealize.SL.Sem Idealize.ShloMosaic.ValueIdx
open Idealize.ShloMosaic.Pipeline (Dat)

namespace Cert.KernelIdeal.LinearValue

open Cert.KernelIdeal Cert.KernelIdeal.Gen Cert.KernelIdeal.Pieces Cert.KernelIdeal.Blocks Cert.KernelIdeal.Payload Cert.Linear

variable (m : (ℓ : Loc nD τ sig) → Buf (Elt Ideal) ℓ) (ρ : Dev nD → PrngReg)

/-- The three argument arrays as launched, as functions into the extended reals. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- The dense layer with merged rows, as contents of the region's output array. -/
abbrev rowsResult (c : Dev nD) : Buf (Elt Ideal) ((c : Thread nD τ).loc main_v2) :=
  linearRows (argX m c) (argW m c) (argB m c)

/-- Entry (p, q) of what an odd position writes is the merged-rows dense layer at that position's row and feature. -/
theorem written_apply (c : Dev nD) (t : Fin cfg0.N) (h1 : t.val % 2 = 1) (p q : Fin 1024) :
    written m c t (ix2 p q) = linearRows (argX m c) (argW m c) (argB m c) (ix2 (rowAt t p) (featAt t q)) := by
  have er : rowAt (before t) p = rowAt t p :=
    Fin.ext (by show ((t.val - 1) / 8) * 1024 + p.val = (t.val / 8) * 1024 + p.val; omega)
  have ef : featAt (before t) q = featAt t q :=
    Fin.ext (by show (((t.val - 1) / 2) % 4) * 1024 + q.val = ((t.val / 2) % 4) * 1024 + q.val; omega)
  have elo : ∀ κ : Fin 2048, contrAt (before t) κ = lo κ := fun κ =>
    Fin.ext (by show ((t.val - 1) % 2) * 2048 + κ.val = κ.val; omega)
  have ehi : ∀ κ : Fin 2048, contrAt t κ = hi κ := fun κ =>
    Fin.ext (by show (t.val % 2) * 2048 + κ.val = 2048 + κ.val; omega)
  unfold written
  rw [finish_apply, accumulate_apply, accumulate_apply, reset_apply, bblk_apply]
  simp only [xblk_apply, wblk_apply, er, ef, elo, ehi]
  unfold linearRows
  exact congrArg (· + argB m c (ix1 (featAt t q)))
    (acc_two_halves fun κ => argX m c (ix3 (batchOf (rowAt t p)) (posOf (rowAt t p)) κ) * argW m c (ix2 (featAt t q) κ))

/-- What a writing position writes back is its block of the merged-rows dense layer. -/
theorem flushed_eq (c : Dev nD) (t : Fin cfg0.N) (hf : (cfg0.win 3).flush t = true) :
    (dats m 0 c).flushed 3 t = ((cfg0.win 3).blk t).view.read (Elt Ideal) (rowsResult m c) := by
  have h1 : t.val % 2 = 1 := (flush0_3 t).mp hf
  show (cfg0.win 3).cut (grid0.coords t) ((dats m 0 c).after 3 t) = _
  rw [after0_3, outsAt_odd m c t h1]
  funext y
  obtain ⟨p, q, rfl⟩ : ∃ (p q : Fin 1024), y = ix2 p q := ⟨y 0, y 1, eq_ix2 y⟩
  show written m c t (ix2 p q) = rowsResult m c (((cfg0.win 3).blk t).view.emb (ix2 p q))
  have e : ((cfg0.win 3).blk t).view.emb (ix2 p q) = ix2 (rowAt t p) (featAt t q) := funext fun a => Fin.ext (by
    match a with
    | ⟨0, _⟩ => show win0_3.index t 0 * 1024 + 1 * p.val = (t.val / 8) * 1024 + p.val; rw [(index_o t).1]; omega
    | ⟨1, _⟩ => show win0_3.index t 1 * 1024 + 1 * q.val = ((t.val / 2) % 4) * 1024 + q.val; rw [(index_o t).2]; omega)
  rw [e]
  exact written_apply m c t h1 p q

/-- An entry of the output array is in position t's block iff each coordinate is in the block's range. -/
theorem mem_block (t : Fin cfg0.N) (i : S32768x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry (r, n) is in the block written at position 8·(r / 1024) + 2·(n / 1024) + 1. -/
theorem covered (i : S32768x4096.Idx) :
    ∃ t : Fin cfg0.N, (cfg0.win 3).flush t = true ∧ i ∈ ((cfg0.win 3).blk t).view.set := by
  have hr : (i 0).val < 32768 := (i 0).isLt
  have hn : (i 1).val < 4096 := (i 1).isLt
  have hN : cfg0.N = 256 := N_0
  let t : Fin cfg0.N := ⟨((i 0).val / 1024) * 8 + ((i 1).val / 1024) * 2 + 1, by rw [hN]; omega⟩
  have ht : t.val = ((i 0).val / 1024) * 8 + ((i 1).val / 1024) * 2 + 1 := rfl
  refine ⟨t, (flush0_3 t).mpr (by rw [ht]; omega), ?_⟩
  rw [mem_block]
  intro a
  match a with
  | ⟨0, _⟩ =>
    show win0_3.index t 0 * 1024 ≤ (i 0).val ∧ (i 0).val < win0_3.index t 0 * 1024 + 1024
    rw [(index_o t).1, ht]; omega
  | ⟨1, _⟩ =>
    show win0_3.index t 1 * 1024 ≤ (i 1).val ∧ (i 1).val < win0_3.index t 1 * 1024 + 1024
    rw [(index_o t).2, ht]; omega

/-- The region's output array ends at the merged-rows dense layer of the arguments. -/
theorem final_rows (c : Dev nD) : (dats m 0 c).arrAt 3 cfg0.N = rowsResult m c :=
  (dats m 0 c).arrAt_eq_of_cover 3 (rowsResult m c) (flushed_eq m c) covered

/-- The reshape after the region un-merges the rows: the program's result is the dense layer. -/
theorem result_eq (c : Dev nD) :
    Pipeline.afterTail₀ cfgs (dats m) 0 (V0 m) [hostOps1] c main_v3 = linear (argX m c) (argW m c) (argB m c) := by
  unfold Pipeline.afterTail₀
  show StableHlo.after hostOps1 _ (Proc.devRef .tc main_v3) = _
  after_results
  rw [(Pipeline.withArrays_arr spec0 launch0.win.arr_inj c _ _ 3).trans (final_rows m c)]
  exact reshape_linearRows _ _ _ _

/-- The run, read: the result at the dense layer of the arguments, the arguments unchanged. -/
theorem run : θ_run defs (onTc (τ := τ) (main (F := Ideal))) ⟨m, fun _ => 0, ρ⟩ fun r => ∀ c : Dev nD,
      r.2.mem ((c.tc : Thread nD τ).loc main_v3) = linear (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.LinearValue

end
-- ==== Proof.RefValue.lean ====
/-
  The reference on the extended reals is the dense layer.

  Its four operations — the contraction of the batch's last axis with the weight's second axis, the bias broadcast to
  the result's shape through a [1, 1, 4096] intermediate, and their sum — read at (β, s, o) are
  ∑ κ < 4096, x (β, s, κ) · w (o, κ), then bias o, then the two added: `linear`.
-/
import proofs.«149944_j89404039233680_1_alg».proof.Proof.Gen.ReferenceIdeal.Run
import proofs.«149944_j89404039233680_1_alg».proof.Proof.Gen.ReferenceIdeal.Read
import proofs.«149944_j89404039233680_1_alg».proof.Proof.LinearSpec

noncomputable section

open Idealize.ShloMosaic Idealize.ShloMosaic.ValueIdx

namespace Cert.ReferenceIdeal.RefValue

open Cert.ReferenceIdeal Cert.ReferenceIdeal.Read Cert.Linear

/-- The reference's result, as a function of its three arguments, is the dense layer. -/
theorem reference_eq (x : (⟨S8x4096x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = linear x w b := by
  funext i
  have el : ∀ κ : Fin 4096, lidx_main_v0 i κ = ix3 (i 0) (i 1) κ := fun κ => funext fun a => Fin.ext (by
    match a with
    | ⟨0, _⟩ => rfl
    | ⟨1, _⟩ => rfl
    | ⟨2, _⟩ => rfl)
  have er : ∀ κ : Fin 4096, ridx_main_v0 i κ = ix2 (i 2) κ := fun κ => funext fun a => Fin.ext (by
    match a with
    | ⟨0, _⟩ => rfl
    | ⟨1, _⟩ => rfl)
  have eb : idx_main_v1 (idx_main_v2 i) = ix1 (i 2) := funext fun a => Fin.ext (by
    match a with
    | ⟨0, _⟩ => rfl)
  rw [val_main_v3_apply, val_main_v0_apply, val_main_v2_apply, val_main_v1_apply, eb]
  simp only [el, er]
  rfl

end Cert.ReferenceIdeal.RefValue

end
-- ==== Proof.lean ====
/-
  A dense layer over a batch, y (β, s, o) = ∑ κ < 4096, x (β, s, κ) · w (o, κ) + b o, computed two ways.

  The kernel merges batch and position into 32768 rows and tiles the 32768 × 4096 result into 1024 × 1024 blocks; for
  each block it walks the contraction axis in two halves of 2048, keeping a running sum in a scratch accumulator that is
  zeroed at the first half, and at the second half writes accumulator plus bias to the block. Its operands are narrowed
  to a shorter float format before each product; on exact values that is the identity. The reference contracts the whole
  axis at once and adds the broadcast bias.

  On the extended reals both are the function `Cert.Linear.linear` of the arguments (LinearSpec.lean): the kernel's
  result because zero plus the lower-half sum plus the upper-half sum is the whole sum — addition of extended reals is a
  commutative monoid, so no finiteness of the inputs is needed — and because the blocks written at the odd grid
  positions tile the result (KernelValue.lean, over Pieces.lean, Payload.lean and Blocks.lean); the reference's by
  reading its four operations at an index (RefValue.lean). The idealized kernel is the kernel's own
  text read on exact values, no operation rewritten, so `preserves` is trivial; the kernels' frames are the generated
  ones and the reference's frame is its generated run with the result dropped.
-/
import proofs.«149944_j89404039233680_1_alg».proof.Defs
import proofs.«149944_j89404039233680_1_alg».proof.Proof.Gen.Kernel
import proofs.«149944_j89404039233680_1_alg».proof.Proof.Gen.Kernel.Skeleton
import proofs.«149944_j89404039233680_1_alg».proof.Proof.Gen.Kernel.Launch
import proofs.«149944_j89404039233680_1_alg».proof.Proof.Gen.Kernel.Points
import proofs.«149944_j89404039233680_1_alg».proof.Proof.Gen.Kernel.Frame
import proofs.«149944_j89404039233680_1_alg».proof.Proof.Gen.KernelIdeal
import proofs.«149944_j89404039233680_1_alg».proof.Proof.Gen.KernelIdeal.Skeleton
import proofs.«149944_j89404039233680_1_alg».proof.Proof.Gen.KernelIdeal.Launch
import proofs.«149944_j89404039233680_1_alg».proof.Proof.Gen.KernelIdeal.Points
import proofs.«149944_j89404039233680_1_alg».proof.Proof.Gen.KernelIdeal.Frame
import proofs.«149944_j89404039233680_1_alg».proof.Proof.Gen.ReferenceIdeal
import proofs.«149944_j89404039233680_1_alg».proof.Proof.Gen.ReferenceIdeal.Run
import proofs.«149944_j89404039233680_1_alg».proof.Proof.Gen.ReferenceIdeal.Read
import proofs.«149944_j89404039233680_1_alg».proof.Proof.Gen.Pre_finite_inputs
import proofs.«149944_j89404039233680_1_alg».proof.Proof.KernelValue
import proofs.«149944_j89404039233680_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result at the dense layer of those arguments. -/
theorem algebraic : Cert.algebraic_KernelIdeal_ReferenceIdeal := by
  intro m ρ m' ρ' _ hagree
  refine ⟨fun c => Cert.Linear.linear (Cert.KernelIdeal.LinearValue.argX m c) (Cert.KernelIdeal.LinearValue.argW m c)
    (Cert.KernelIdeal.LinearValue.argB m c), Cert.KernelIdeal.LinearValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
